-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S512x4096 : Shape := ⟨2, ![512, 4096]⟩
abbrev S512 : Shape := ⟨1, ![512]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S512 : S_.BroadcastsInDim S512 (![] : Fin 0 → Fin S512.rank)
  reducesTo_S512_S_d0 : S512.ReducesTo [0] S_
  bcast_S_S16x8192 : S_.BroadcastsInDim S16x8192 (![] : Fin 0 → Fin S16x8192.rank)
  reducesTo_S16x8192_S_d0_1 : S16x8192.ReducesTo [0, 1] S_

variable [Facts]

def fn {F : FTy → Type} [FloatOps F] (main_arg0 : IVec S16x8192 32) (main_arg1 : FVec F S512x4096 .f32) (main_arg2 : FVec F S512 .f32) : IVec S_ 1 :=
  let main_v0 : FVec F S512x4096 .f32 := Host.absf main_arg1
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_c_2 : IVec S_ 32 := constantI S_ 32 0#32
  let main_v9 : IVec S16x8192 32 := broadcastInDim S16x8192 ![] bcast_S_S16x8192 main_c_2
  let main_v10 : IVec S16x8192 1 := cmpi .sge main_arg0 main_v9
  let main_c_3 : IVec S_ 32 := constantI S_ 32 4096#32
  let main_v11 : IVec S16x8192 32 := broadcastInDim S16x8192 ![] bcast_S_S16x8192 main_c_3
  let main_v12 : IVec S16x8192 1 := cmpi .slt main_arg0 main_v11
  let main_v13 : IVec S16x8192 1 := andi main_v10 main_v12
  let main_c_4 : IVec S_ 1 := constantI S_ 1 1#1
  let main_v14 : IVec S_ 1 := (fun x v => Host.reduce IntOp.andi x v reducesTo_S16x8192_S_d0_1 h_S_) main_v13 main_c_4
  let main_v15 : IVec S_ 1 := andi main_v8 main_v14
  main_v15
-- ==== Kernel.lean ====
abbrev S16x8192 : Shape := ⟨2, ![16, 8192]⟩
abbrev S512x4096 : Shape := ⟨2, ![512, 4096]⟩
abbrev S512 : Shape := ⟨1, ![512]⟩
abbrev S131072x1 : Shape := ⟨2, ![131072, 1]⟩
abbrev S4096x512 : Shape := ⟨2, ![4096, 512]⟩
abbrev S131072x512 : Shape := ⟨2, ![131072, 512]⟩
abbrev S512x1 : Shape := ⟨2, ![512, 1]⟩
abbrev S512x512 : Shape := ⟨2, ![512, 512]⟩
abbrev S1x512 : Shape := ⟨2, ![1, 512]⟩
abbrev S16x8192x512 : Shape := ⟨3, ![16, 8192, 512]⟩

abbrev nBuf : Space → Nat
  | .hbm => 8
  | .vmem => 6
  | .smem => 0
  | _ => 0

abbrev bufTy : (tb : Table) → Fin (tcTables nBuf tb) → BufTy
  | .hbm, ⟨0, _⟩ => ⟨S16x8192, .i32⟩
  | .hbm, ⟨1, _⟩ => ⟨S512x4096, .f32⟩
  | .hbm, ⟨2, _⟩ => ⟨S512, .f32⟩
  | .hbm, ⟨3, _⟩ => ⟨S131072x1, .i32⟩
  | .hbm, ⟨4, _⟩ => ⟨S4096x512, .f32⟩
  | .hbm, ⟨5, _⟩ => ⟨S4096x512, .bf16⟩
  | .hbm, ⟨6, _⟩ => ⟨S131072x512, .f32⟩
  | .hbm, ⟨7, _⟩ => ⟨S16x8192x512, .f32⟩
  | .local _ .vmem, ⟨0, _⟩ => ⟨S512x1, .i32⟩
  | .local _ .vmem, ⟨1, _⟩ => ⟨S512x1, .i32⟩
  | .local _ .vmem, ⟨2, _⟩ => ⟨S4096x512, .bf16⟩
  | .local _ .vmem, ⟨3, _⟩ => ⟨S512, .f32⟩
  | .local _ .vmem, ⟨4, _⟩ => ⟨S512x512, .f32⟩
  | .local _ .vmem, ⟨5, _⟩ => ⟨S512x512, .f32⟩
  | _, _ => ⟨S16x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192_S131072x1 : S16x8192.ShapeCasts S131072x1
  transposes_S512x4096_S4096x512_1_0 : S512x4096.Transposes [1, 0] S4096x512
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x4096_d1_w32 : S512x4096.Iotas .tc 32 [1]
  broadcasts_S512x1_S512x4096 : S512x1.Broadcasts S512x4096
  natLt_1_32 : 1 < 32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S131072x512_S16x8192x512 : S131072x512.ShapeCasts S16x8192x512
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S131072x1.size a
  hwx0_0 : ∀ i : grid0.Coords, EltTy.bits .i32 = 32 ∨ (Rect.block (s := S131072x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S131072x512.size a
  hwx0_3 : ∀ i : grid0.Coords, EltTy.bits .f32 = 32 ∨ (Rect.block (s := S131072x512) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192 : Shape := ⟨2, ![16, 8192]⟩
abbrev S512x4096 : Shape := ⟨2, ![512, 4096]⟩
abbrev S512 : Shape := ⟨1, ![512]⟩
abbrev S4096x512 : Shape := ⟨2, ![4096, 512]⟩
abbrev S_ : Shape := ⟨0, ![]⟩
abbrev S16x8192x1 : Shape := ⟨3, ![16, 8192, 1]⟩
abbrev S1 : Shape := ⟨1, ![1]⟩
abbrev S1x1x1 : Shape := ⟨3, ![1, 1, 1]⟩
abbrev S16x8192x512 : Shape := ⟨3, ![16, 8192, 512]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S16x8192, .i32⟩
  | .hbm, ⟨1, _⟩ => ⟨S512x4096, .f32⟩
  | .hbm, ⟨2, _⟩ => ⟨S512, .f32⟩
  | .hbm, ⟨3, _⟩ => ⟨S4096x512, .f32⟩
  | .hbm, ⟨4, _⟩ => ⟨S_, .i32⟩
  | .hbm, ⟨5, _⟩ => ⟨S16x8192, .i32⟩
  | .hbm, ⟨6, _⟩ => ⟨S16x8192, .i1⟩
  | .hbm, ⟨7, _⟩ => ⟨S_, .i32⟩
  | .hbm, ⟨8, _⟩ => ⟨S16x8192, .i32⟩
  | .hbm, ⟨9, _⟩ => ⟨S16x8192, .i32⟩
  | .hbm, ⟨10, _⟩ => ⟨S16x8192, .i32⟩
  | .hbm, ⟨11, _⟩ => ⟨S16x8192x1, .i32⟩
  | .hbm, ⟨12, _⟩ => ⟨S1, .i32⟩
  | .hbm, ⟨13, _⟩ => ⟨S_, .i32⟩
  | .hbm, ⟨14, _⟩ => ⟨S16x8192x1, .i32⟩
  | .hbm, ⟨15, _⟩ => ⟨S16x8192x1, .i1⟩
  | .hbm, ⟨16, _⟩ => ⟨S1x1x1, .i32⟩
  | .hbm, ⟨17, _⟩ => ⟨S16x8192x1, .i32⟩
  | .hbm, ⟨18, _⟩ => ⟨S16x8192x1, .i1⟩
  | .hbm, ⟨19, _⟩ => ⟨S16x8192x1, .i1⟩
  | .hbm, ⟨20, _⟩ => ⟨S_, .i1⟩
  | .hbm, ⟨21, _⟩ => ⟨S16x8192, .i1⟩
  | .hbm, ⟨22, _⟩ => ⟨S16x8192x512, .f32⟩
  | .hbm, ⟨23, _⟩ => ⟨S16x8192x512, .i1⟩
  | .hbm, ⟨24, _⟩ => ⟨S_, .f32⟩
  | .hbm, ⟨25, _⟩ => ⟨S16x8192x512, .f32⟩
  | .hbm, ⟨26, _⟩ => ⟨S16x8192x512, .f32⟩
  | .hbm, ⟨27, _⟩ => ⟨S1x1x512, .f32⟩
  | .hbm, ⟨28, _⟩ => ⟨S16x8192x512, .f32⟩
  | .hbm, ⟨29, _⟩ => ⟨S16x8192x512, .f32⟩
  | _, _ => ⟨S16x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  transposes_S512x4096_S4096x512_1_0 : S512x4096.Transposes [1, 0] S4096x512
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  bcast_S_S16x8192x1 : S_.BroadcastsInDim S16x8192x1 (![] : Fin 0 → Fin S16x8192x1.rank)
  bcast_S1_S1x1x1_2 : S1.BroadcastsInDim S1x1x1 (![2] : Fin 1 → Fin S1x1x1.rank)
  bcast_S1x1x1_S16x8192x1_0_1_2 : S1x1x1.BroadcastsInDim S16x8192x1 (![0, 1, 2] : Fin 3 → Fin S16x8192x1.rank)
  reducesTo_S16x8192x1_S16x8192_d2 : S16x8192x1.ReducesTo [2] S16x8192
  h_S_ : 0 < S_.numel
  bcast_S16x8192_S16x8192x512_0_1 : S16x8192.BroadcastsInDim S16x8192x512 (![0, 1] : Fin 2 → Fin S16x8192x512.rank)
  bcast_S_S16x8192x512 : S_.BroadcastsInDim S16x8192x512 (![] : Fin 0 → Fin S16x8192x512.rank)
  bcast_S512_S1x1x512_2 : S512.BroadcastsInDim S1x1x512 (![2] : Fin 1 → Fin S1x1x512.rank)
  bcast_S1x1x512_S16x8192x512_0_1_2 : S1x1x512.BroadcastsInDim S16x8192x512 (![0, 1, 2] : Fin 3 → Fin S16x8192x512.rank)
  gather_S4096x512_S16x8192x1_S16x8192x512_2_0_n_n_0_2_1512_wf : GatherDims.WF S4096x512 S16x8192x1 S16x8192x512 [2] [0] [] [0] [] 2 ![1, 512]

variable [Facts₀]

def gather_S4096x512_S16x8192x1_S16x8192x512_2_0_n_n_0_2_1512 : GatherDims S4096x512 S16x8192x1 S16x8192x512 where
  offsetDims := [2]
  collapsedSliceDims := [0]
  operandBatchingDims := []
  startIndicesBatchingDims := []
  startIndexMap := [0]
  indexVectorDim := 2
  sliceSizes := ![1, 512]
  wf := gather_S4096x512_S16x8192x1_S16x8192x512_2_0_n_n_0_2_1512_wf

class Facts : Prop extends Facts₀ where

variable [Facts]
-- ==== Proof.Spec.lean ====
/-
  What both programs compute, as one function of the three argument arrays.

  Token (p, q) carries a class id x[p, q]; the result row for that token is column x[p, q] of the weight matrix W
  (row x[p, q] of its transpose) plus the bias: out[p, q, e] = W[e, x[p, q]] + b[e]. The class id is read as a
  natural number modulo 4096 so that the function is total; on ids in [0, 4096), the only ones the precondition
  admits, the reduction is the identity.

  Also here: what "every id is in [0, 4096)" means for a 32-bit word read signed, once, for both sides — such a
  word is non-negative, below 4096 and at most 4095 as a signed integer, and adding 4096 to it is never selected.
-/
import Idealize.ShloMosaic.PureOps.Ideal
import Idealize.ShloMosaic.Lib.ValueIdx

noncomputable section

namespace Cert.Embed

open Idealize.ShloMosaic Idealize.ShloMosaic.ValueIdx

/-- The table row token (p, q) selects: its class id as a natural number, reduced modulo the number of classes. -/
def row (x : IVec ⟨2, ![16, 8192]⟩ 32) (p : Fin 16) (q : Fin 8192) : Fin 4096 :=
  ⟨(x (ix2 p q)).toNat % 4096, Nat.mod_lt _ (by decide)⟩

/-- out[p, q, e] = W[e, x[p, q]] + b[e]. -/
def G (x : IVec ⟨2, ![16, 8192]⟩ 32) (W : FVec Ideal ⟨2, ![512, 4096]⟩ .f32) (b : FVec Ideal ⟨1, ![512]⟩ .f32) :
    FVec Ideal ⟨3, ![16, 8192, 512]⟩ .f32 :=
  fun i => W (ix2 (⟨(i 2).val, (i 2).isLt⟩ : Fin 512)
      (row x (⟨(i 0).val, (i 0).isLt⟩ : Fin 16) (⟨(i 1).val, (i 1).isLt⟩ : Fin 8192)))
    + b (ix1 (⟨(i 2).val, (i 2).isLt⟩ : Fin 512))

theorem G_apply (x : IVec ⟨2, ![16, 8192]⟩ 32) (W : FVec Ideal ⟨2, ![512, 4096]⟩ .f32) (b : FVec Ideal ⟨1, ![512]⟩ .f32)
    (p : Fin 16) (q : Fin 8192) (e : Fin 512) :
    G x W b (ix3 p q e) = W (ix2 e (row x p q)) + b (ix1 e) := rfl

/-- Every class id, read as a natural number, is below the number of classes. -/
def InRange (x : IVec ⟨2, ![16, 8192]⟩ 32) : Prop := ∀ (p : Fin 16) (q : Fin 8192), (x (ix2 p q)).toNat < 4096

theorem row_val {x : IVec ⟨2, ![16, 8192]⟩ 32} (hx : InRange x) (p : Fin 16) (q : Fin 8192) :
    (row x p q).val = (x (ix2 p q)).toNat := Nat.mod_eq_of_lt (hx p q)

/-! ## A 32-bit word below 4096, read signed -/

/-- Its sign bit is clear, so the signed reading is the unsigned one. -/
theorem toInt_of_lt {a : BitVec 32} (h : a.toNat < 4096) : a.toInt = (a.toNat : Int) := by
  rw [BitVec.toInt_eq_toNat_cond]
  have : 2 * a.toNat < 2 ^ 32 := by omega
  rw [if_pos this]

theorem toInt_toNat_of_lt {a : BitVec 32} (h : a.toNat < 4096) : a.toInt.toNat = a.toNat := by
  rw [toInt_of_lt h]; rfl

/-- The gather's clamp of the start index into [0, 4095] leaves it alone. -/
theorem clamp_of_lt {a : BitVec 32} (h : a.toNat < 4096) : min a.toInt.toNat (4096 - 1) = a.toNat := by
  rw [toInt_toNat_of_lt h]; omega

/-- It is not negative: the wrap-around of a negative index is not taken. -/
theorem not_slt_zero {a : BitVec 32} (h : a.toNat < 4096) : a.slt 0#32 = false := by
  rw [BitVec.slt, toInt_of_lt h]
  simp

/-- It is at least 0 and at most 4095: the out-of-range fill is not taken. -/
theorem sle_zero {a : BitVec 32} (h : a.toNat < 4096) : (0#32).sle a = true := by
  rw [BitVec.sle, toInt_of_lt h]
  simp

theorem sle_4095 {a : BitVec 32} (h : a.toNat < 4096) : a.sle 4095#32 = true := by
  rw [BitVec.sle, toInt_of_lt h]
  have : (4095#32 : BitVec 32).toInt = 4095 := by decide
  rw [this]
  simp only [decide_eq_true_eq]
  omega

end Cert.Embed

end
-- ==== Proof.Pre.lean ====
/-
  The precondition, read: every class id lies in [0, 4096).

  The printed predicate is the conjunction of three "all" reductions: |W| < +inf everywhere, |b| < +inf
  everywhere, and (x ≥ 0 and x < 4096) everywhere, the comparisons signed. Only the third is used: at each
  token it says the id, read as a signed 32-bit integer, is at least 0 and below 4096, and a word with both
  properties has its sign bit clear, so its unsigned reading is the same number and is below 4096.
-/
import proofs.«407606_j69707319214556_1_alg».proof.Pre_finite_inputs
import proofs.«407606_j69707319214556_1_alg».proof.Proof.Gen.Pre_finite_inputs
import proofs.«407606_j69707319214556_1_alg».proof.Proof.Spec
import Idealize.ShloMosaic.Lib.ReduceAll
import Idealize.ShloMosaic.Lib.StableHlo.Predicate

noncomputable section

namespace Cert.Embed

open Idealize.ShloMosaic Idealize.ShloMosaic.ValueIdx

/-- A truth value written as a one-bit word is the word 1 exactly when it is true. -/
theorem ofBool_eq_one (t : Bool) : BitVec.ofBool t = 1#1 ↔ t = true := by cases t <;> decide

/-- A 32-bit word that is at least 0 and below 4096 as a signed integer is below 4096 as a natural number. -/
theorem toNat_lt_of_signed {a : BitVec 32} (h0 : (0#32).sle a = true) (h1 : a.slt 4096#32 = true) : a.toNat < 4096 := by
  have e0 : (0#32 : BitVec 32).toInt = 0 := by decide
  have e1 : (4096#32 : BitVec 32).toInt = 4096 := by decide
  rw [BitVec.sle, e0, decide_eq_true_eq] at h0
  rw [BitVec.slt, e1, decide_eq_true_eq] at h1
  rw [BitVec.toInt_eq_toNat_cond] at h0 h1
  have hlt : a.toNat < 2 ^ 32 := a.isLt
  split at h0 <;> omega

instance : Subsingleton (Cert.Pre_finite_inputs.S_).Idx := ⟨fun a b => funext fun d => d.elim0⟩

/-- The precondition's third conjunct at a token. -/
theorem inRange_of_pre {F : FTy → Type} [FloatOps F] (x : IVec ⟨2, ![16, 8192]⟩ 32)
    (W : FVec F Cert.Pre_finite_inputs.S512x4096 .f32) (b : FVec F Cert.Pre_finite_inputs.S512 .f32)
    (h : Cert.Pre_finite_inputs.fn (F := F) x W b = fun _ => 1#1) : InRange x := by
  intro p q
  have h15 := congrFun h ix0
  dsimp only [Cert.Pre_finite_inputs.fn] at h15
  have h14 := (IntOp.andi_eq_one.mp h15).2
  have h13 := Host.reduce_andi_all _ _ _ _ _ h14 (ix2 p q)
  obtain ⟨hge, hlt⟩ := IntOp.andi_eq_one.mp h13
  refine toNat_lt_of_signed ?_ ?_
  · have : IntOp.cmpi .sge (x (ix2 p q)) 0#32 = 1#1 := hge
    exact (ofBool_eq_one _).mp this
  · have : IntOp.cmpi .slt (x (ix2 p q)) 4096#32 = 1#1 := hlt
    exact (ofBool_eq_one _).mp this

end Cert.Embed

end
-- ==== Proof.RefRun.lean ====
/-
  The reference program's run, read back as one straight line.

  jnp.take(W.T, x, axis=0) + b lowers to a transpose of W, the outlined function @_take (which wraps a negative
  index by adding 4096 through the outlined @_where, gathers row idx of the transposed table, and overwrites with
  NaN every row whose wrapped index lies outside [0, 4095]), two broadcasts of b and the final add. Inlined at
  the call sites over the call's buffers these are 27 host operations; every weakly fair execution of @main
  terminates with each buffer at the fold of those operations over the launch contents.
-/
import proofs.«407606_j69707319214556_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in order: the transpose, @_take's twenty-three (with @_where's select in seventh place),
    the two broadcasts of the bias and the add. -/
abbrev ops : List (HloOp τ sig (Elt F)) :=
  [ unary main_arg1 main_v0 ((transpose S4096x512 [1, 0] · transposes_S512x4096_S4096x512_1_0) : (⟨S512x4096, .f32⟩ : BufTy).Contents (Elt F) → (⟨S4096x512, .f32⟩ : BufTy).Contents (Elt F)),
    TRef.nullary main_call0.c (constantI S_ 32 0#32),
    TRef.unary main_call0.c main_call0.v0 (broadcastInDim S16x8192 ![] bcast_S_S16x8192),
    TRef.binary (.of main_arg0) main_call0.v0 main_call0.v1 (cmpi .slt),
    TRef.nullary main_call0.c_0 (constantI S_ 32 4096#32),
    TRef.unary main_call0.c_0 main_call0.v2 (broadcastInDim S16x8192 ![] bcast_S_S16x8192),
    TRef.binary (.of main_arg0) main_call0.v2 main_call0.v3 addi,
    TRef.ternary main_call0.v1 main_call0.v3 (.of main_arg0) main_call0.call0.v0 select,
    TRef.unary main_call0.call0.v0 main_call0.v5 (broadcastInDim S16x8192x1 ![0, 1] bcast_S16x8192_S16x8192x1_0_1),
    TRef.nullary main_call0.c_1 (constantI S1 32 4095#32),
    TRef.nullary main_call0.c_2 (constantI S_ 32 0#32),
    TRef.unary main_call0.c_2 main_call0.v6 (broadcastInDim S16x8192x1 ![] bcast_S_S16x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16x8192x1 ![0, 1, 2] bcast_S1x1x1_S16x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x8192x1_S16x8192_d2 h_S_),
    TRef.binary (.of main_v0) main_call0.v5 main_call0.v13 (fun x i => Host.gather gather_S4096x512_S16x8192x1_S16x8192x512_2_0_n_n_0_2_1512 x i),
    TRef.unary main_call0.v12 main_call0.v14 (broadcastInDim S16x8192x512 ![0, 1] bcast_S16x8192_S16x8192x512_0_1),
    TRef.nullary main_call0.cst (constant S_ .f32 0x7FC00000#32),
    TRef.unary main_call0.cst main_call0.v15 (broadcastInDim S16x8192x512 ![] bcast_S_S16x8192x512),
    TRef.ternary main_call0.v14 main_call0.v13 main_call0.v15 main_call0.v16 select,
    unary main_arg2 main_v2 (broadcastInDim S1x1x512 ![2] bcast_S512_S1x1x512_2 : (⟨S512, .f32⟩ : BufTy).Contents (Elt F) → (⟨S1x1x512, .f32⟩ : BufTy).Contents (Elt F)),
    unary main_v2 main_v3 (broadcastInDim S16x8192x512 ![0, 1, 2] bcast_S1x1x512_S16x8192x512_0_1_2 : (⟨S1x1x512, .f32⟩ : BufTy).Contents (Elt F) → (⟨S16x8192x512, .f32⟩ : BufTy).Contents (Elt F)),
    binary main_v1 main_v3 main_v4 (addf : (⟨S16x8192x512, .f32⟩ : BufTy).Contents (Elt F) → (⟨S16x8192x512, .f32⟩ : BufTy).Contents (Elt F) → (⟨S16x8192x512, .f32⟩ : BufTy).Contents (Elt F)) ]

set_option maxRecDepth 1024 in
/-- @main is that straight line: the two outlined functions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result is the embedding lookup: out[p, q, e] = W[e, x[p, q]] + b[e] for class ids in [0, 4096).

  The stages of jnp.take(W.T, x, axis=0) + b, named: the wrapped index (x + 4096 where x < 0, else x), the start
  indices (the wrapped index with a trailing unit axis), the in-range mask (0 ≤ index ≤ 4095, reduced by "and" over
  the unit axis), the gather of rows of the transposed table, the fill of masked-out rows with NaN, and the add of
  the bias broadcast over tokens. For an id in [0, 4096): it is not negative, so the wrap is not taken; it is
  within [0, 4095], so the mask is 1 and the gathered row is kept; the gather's clamp of the start index into
  [0, 4095] is the identity, so the row gathered is row x[p, q] of W transposed, that is column x[p, q] of W.
-/
import proofs.«407606_j69707319214556_1_alg».proof.Proof.Gen.ReferenceIdeal
import proofs.«407606_j69707319214556_1_alg».proof.Proof.Spec
import Idealize.ShloMosaic.Lib.Pipeline.Value
import Idealize.ShloMosaic.PureOps.Reduce

noncomputable section

namespace Cert.ReferenceIdeal.RefValue

open Cert.ReferenceIdeal Idealize.ShloMosaic Idealize.ShloMosaic.ValueIdx Cert.Embed
open Cert.ReferenceIdeal.Facts₀

variable {F : FTy → Type} [FloatOps F]

/-! ## The stages -/

/-- x + 4096 where x < 0, else x. -/
def wrapped (x : IVec S16x8192 32) : IVec S16x8192 32 :=
  select (cmpi .slt x (broadcastInDim S16x8192 ![] bcast_S_S16x8192 (constantI S_ 32 0#32)))
    (addi x (broadcastInDim S16x8192 ![] bcast_S_S16x8192 (constantI S_ 32 4096#32))) x

/-- The wrapped index with a trailing unit axis: the gather's start indices. -/
def startIdx (x : IVec S16x8192 32) : IVec S16x8192x1 32 :=
  broadcastInDim S16x8192x1 ![0, 1] bcast_S16x8192_S16x8192x1_0_1 (wrapped x)

/-- 0 ≤ start index ≤ 4095, at each element of the start indices. -/
def inbElt (x : IVec S16x8192 32) : IVec S16x8192x1 1 :=
  andi (cmpi .sge (startIdx x) (broadcastInDim S16x8192x1 ![] bcast_S_S16x8192x1 (constantI S_ 32 0#32)))
    (cmpi .sle (startIdx x) (broadcastInDim S16x8192x1 ![0, 1, 2] bcast_S1x1x1_S16x8192x1_0_1_2
      (broadcastInDim S1x1x1 ![2] bcast_S1_S1x1x1_2 (constantI S1 32 4095#32))))

/-- The same reduced by "and" over the unit axis: one bit per token. -/
def inb (x : IVec S16x8192 32) : IVec S16x8192 1 :=
  Host.reduce IntOp.andi (inbElt x) (constantI S_ 1 1#1) reducesTo_S16x8192x1_S16x8192_d2 h_S_

/-- The gathered rows of the transposed table. -/
def gathered (x : IVec S16x8192 32) (W : FVec F S512x4096 .f32) : FVec F S16x8192x512 .f32 :=
  Host.gather gather_S4096x512_S16x8192x1_S16x8192x512_2_0_n_n_0_2_1512
    (transpose S4096x512 [1, 0] W transposes_S512x4096_S4096x512_1_0) (startIdx x)

/-- The reference's result as one term of its three arguments. -/
def refOut (x : IVec S16x8192 32) (W : FVec F S512x4096 .f32) (b : FVec F S512 .f32) : FVec F S16x8192x512 .f32 :=
  addf (select (broadcastInDim S16x8192x512 ![0, 1] bcast_S16x8192_S16x8192x512_0_1 (inb x)) (gathered x W)
      (broadcastInDim S16x8192x512 ![] bcast_S_S16x8192x512 (constant S_ .f32 0x7FC00000#32)))
    (broadcastInDim S16x8192x512 ![0, 1, 2] bcast_S1x1x512_S16x8192x512_0_1_2
      (broadcastInDim S1x1x512 ![2] bcast_S512_S1x1x512_2 b))

/-! ## The index stages at a token -/

/-- An id in range is not negative: the wrap is not taken. -/
theorem wrapped_apply {x : IVec S16x8192 32} (hx : InRange x) (p : Fin 16) (q : Fin 8192) :
    wrapped x (ix2 p q) = x (ix2 p q) := by
  show Scalar.select (IntOp.cmpi .slt (x (ix2 p q)) 0#32) (IntOp.addi (x (ix2 p q)) 4096#32) (x (ix2 p q)) = _
  have h0 : IntOp.cmpi .slt (x (ix2 p q)) 0#32 = 0#1 := by
    show BitVec.ofBool ((x (ix2 p q)).slt 0#32) = 0#1
    rw [not_slt_zero (hx p q)]; rfl
  rw [h0]; rfl

/-- The start index of token (p, q) is its wrapped index. -/
theorem startIdx_apply (x : IVec S16x8192 32) (p : Fin 16) (q : Fin 8192) (z : Fin 1) :
    startIdx x (ix3 p q z) = wrapped x (ix2 p q) := by
  unfold startIdx
  refine broadcastInDim_apply _ _ _ _ (ix2 p q) ?_
  intro a
  match a with
  | ⟨0, _⟩ => rfl
  | ⟨1, _⟩ => rfl

/-- A left fold by "and" from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- Every start index lies in [0, 4095]. -/
theorem inbElt_apply {x : IVec S16x8192 32} (hx : InRange x) (i : S16x8192x1.Idx) : inbElt x i = 1#1 := by
  obtain ⟨p, q, z, rfl⟩ : ∃ (p : Fin 16) (q : Fin 8192) (z : Fin 1), i = ix3 p q z := ⟨i 0, i 1, i 2, eq_ix3 i⟩
  show IntOp.andi (IntOp.cmpi .sge (startIdx x (ix3 p q z)) 0#32) (IntOp.cmpi .sle (startIdx x (ix3 p q z)) 4095#32) = 1#1
  rw [startIdx_apply, wrapped_apply hx]
  show IntOp.andi (BitVec.ofBool ((0#32).sle (x (ix2 p q)))) (BitVec.ofBool ((x (ix2 p q)).sle 4095#32)) = 1#1
  rw [sle_zero (hx p q), sle_4095 (hx p q)]; rfl

/-- So the in-range mask is 1 at every token. -/
theorem inb_apply {x : IVec S16x8192 32} (hx : InRange x) (j : S16x8192.Idx) : inb x j = 1#1 := by
  unfold inb
  rw [Host.reduce_eq_foldl]
  exact foldl_andi_ones _ _ fun i _ => inbElt_apply hx i

/-! ## The gather, the transpose and the bias at an index -/

/-- The start index of token (p, q), for an id in range, is the id itself; clamping it into [0, 4095] changes nothing. -/
theorem start_clamped {x : IVec S16x8192 32} (hx : InRange x) (p : Fin 16) (q : Fin 8192) :
    min (startIdx x (ix3 p q (0 : Fin 1))).toInt.toNat (4096 - 1) = (row x p q).val := by
  rw [startIdx_apply, wrapped_apply hx, clamp_of_lt (hx p q), row_val hx]

/-- The transposed table at (r, e) is the table at (e, r). -/
theorem transpose_at (W : FVec F S512x4096 .f32) (r : Fin 4096) (e : Fin 512) :
    transpose S4096x512 [1, 0] W transposes_S512x4096_S4096x512_1_0 (ix2 r e) = W (ix2 e r) := by
  refine transpose_apply _ _ _ _ (ix2 e r) ?_
  intro a
  match a with
  | ⟨0, _⟩ => rfl
  | ⟨1, _⟩ => rfl

/-- The operand index the gather reads at result index (p, q, e): row = the clamped start index of token (p, q),
    column = e (the one offset axis; the row axis is collapsed, nothing is batched). -/
theorem operandIdx_at (s : IVec S16x8192x1 32) (p : Fin 16) (q : Fin 8192) (e : Fin 512) :
    gather_S4096x512_S16x8192x1_S16x8192x512_2_0_n_n_0_2_1512.operandIdx (ix3 p q e) s
      = ix2 (⟨min (s (ix3 p q (0 : Fin 1))).toInt.toNat (4096 - 1), by omega⟩ : Fin 4096) e := by
  funext a
  refine Fin.ext ?_
  match a with
  | ⟨0, _⟩ =>
    show gather_S4096x512_S16x8192x1_S16x8192x512_2_0_n_n_0_2_1512.start (ix3 p q e) s 0
        + gather_S4096x512_S16x8192x1_S16x8192x512_2_0_n_n_0_2_1512.batchCoord (ix3 p q e) 0
        + gather_S4096x512_S16x8192x1_S16x8192x512_2_0_n_n_0_2_1512.offCoord (ix3 p q e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x512_S16x8192x1_S16x8192x512_2_0_n_n_0_2_1512.startIndexMap from List.mem_singleton.mpr rfl)]
    have hsi : gather_S4096x512_S16x8192x1_S16x8192x512_2_0_n_n_0_2_1512.siIdx (ix3 p q e)
        ⟨List.idxOf (0 : Fin 2) gather_S4096x512_S16x8192x1_S16x8192x512_2_0_n_n_0_2_1512.startIndexMap,
          List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S4096x512_S16x8192x1_S16x8192x512_2_0_n_n_0_2_1512.start (ix3 p q e) s 1
        + gather_S4096x512_S16x8192x1_S16x8192x512_2_0_n_n_0_2_1512.batchCoord (ix3 p q e) 1
        + gather_S4096x512_S16x8192x1_S16x8192x512_2_0_n_n_0_2_1512.offCoord (ix3 p q e) 1 = e.val
    rw [GatherDims.batchCoord_eq_zero _ _ _ List.not_mem_nil]
    have hst : gather_S4096x512_S16x8192x1_S16x8192x512_2_0_n_n_0_2_1512.start (ix3 p q e) s 1 = 0 := by
      unfold GatherDims.start
      rw [dif_neg (by decide)]
    rw [hst]
    simp only [Nat.add_zero, Nat.zero_add]
    unfold GatherDims.offCoord
    rw [dif_pos (by decide)]
    rfl

/-- The gathered row of token (p, q) at column e, for ids in range: W[e, x[p, q]]. -/
theorem gathered_apply {x : IVec S16x8192 32} (hx : InRange x) (W : FVec F S512x4096 .f32)
    (p : Fin 16) (q : Fin 8192) (e : Fin 512) :
    gathered x W (ix3 p q e) = W (ix2 e (row x p q)) := by
  unfold gathered Host.gather
  rw [operandIdx_at]
  have hr : (⟨min (startIdx x (ix3 p q (0 : Fin 1))).toInt.toNat (4096 - 1), by omega⟩ : Fin 4096) = row x p q :=
    Fin.ext (start_clamped hx p q)
  rw [hr]
  exact transpose_at W (row x p q) e

/-- The bias broadcast over tokens, at (p, q, e): b[e]. -/
theorem bias_apply (b : FVec F S512 .f32) (p : Fin 16) (q : Fin 8192) (e : Fin 512) :
    broadcastInDim S16x8192x512 ![0, 1, 2] bcast_S1x1x512_S16x8192x512_0_1_2
      (broadcastInDim S1x1x512 ![2] bcast_S512_S1x1x512_2 b) (ix3 p q e) = b (ix1 e) := by
  have h1 : broadcastInDim S16x8192x512 ![0, 1, 2] bcast_S1x1x512_S16x8192x512_0_1_2
      (broadcastInDim S1x1x512 ![2] bcast_S512_S1x1x512_2 b) (ix3 p q e)
      = broadcastInDim S1x1x512 ![2] bcast_S512_S1x1x512_2 b (ix3 (0 : Fin 1) (0 : Fin 1) e) := by
    refine broadcastInDim_apply _ _ _ _ (ix3 (0 : Fin 1) (0 : Fin 1) e) ?_
    intro a
    match a with
    | ⟨0, _⟩ => rfl
    | ⟨1, _⟩ => rfl
    | ⟨2, _⟩ => rfl
  rw [h1]
  refine broadcastInDim_apply _ _ _ _ (ix1 e) ?_
  intro a
  match a with
  | ⟨0, _⟩ => rfl

/-! ## The result -/

/-- For class ids in [0, 4096) the reference's result is W[e, x[p, q]] + b[e]. -/
theorem refOut_eq_G {x : IVec S16x8192 32} (hx : InRange x) (W : FVec Ideal S512x4096 .f32) (b : FVec Ideal S512 .f32) :
    refOut (F := Ideal) x W b = G x W b := by
  funext i
  obtain ⟨p, q, e, rfl⟩ : ∃ (p : Fin 16) (q : Fin 8192) (e : Fin 512), i = ix3 p q e := ⟨i 0, i 1, i 2, eq_ix3 i⟩
  rw [G_apply]
  show FloatOps.addf (Scalar.select (broadcastInDim S16x8192x512 ![0, 1] bcast_S16x8192_S16x8192x512_0_1 (inb x) (ix3 p q e))
      (gathered x W (ix3 p q e)) _) _ = _
  have hm : broadcastInDim S16x8192x512 ![0, 1] bcast_S16x8192_S16x8192x512_0_1 (inb x) (ix3 p q e) = 1#1 := by
    unfold broadcastInDim
    exact inb_apply hx _
  rw [hm, gathered_apply hx, bias_apply]
  rfl

end Cert.ReferenceIdeal.RefValue

end
-- ==== Proof.RefTerm.lean ====
/-
  The reference's run with its result named: every weakly fair execution of the reference ends with the result
  buffer holding refOut of the three argument arrays as launched, and the arguments unchanged.

  The fold of the 27 host operations, read at the result buffer, is the composed term: reading a buffer back
  through the list, each operation either wrote that buffer, and then the value is its function of its operands'
  values, or did not, and then the value is what was there before. The operations of the outlined functions move
  their values to a buffer's own contents type and back; there and back is the identity, and at these literal
  buffers each single transport is the identity too, the two types being the same.
-/
import proofs.«407606_j69707319214556_1_alg».proof.Proof.RefRun
import proofs.«407606_j69707319214556_1_alg».proof.Proof.RefValue

noncomputable section

namespace Cert.ReferenceIdeal.RefTerm

open Cert.ReferenceIdeal Idealize.ShloMosaic Idealize.ShloMosaic.TcCoe Idealize.SL.Sem Idealize.ShloMosaic.StableHlo
open Cert.ReferenceIdeal.RefRun Cert.ReferenceIdeal.RefValue

variable {F : FTy → Type} [FloatOps F]

/-- Contents moved to a typed reference's own buffer type and back are the contents. -/
theorem ofBuf_toBuf {Val : EltTy → Type} {T : BufTy} (x : TRef sig T) (v : T.Contents Val) : x.ofBuf (x.toBuf v) = v := by
  unfold TRef.ofBuf TRef.toBuf
  rw [cast_cast, cast_eq]

set_option maxHeartbeats 4000000 in
set_option maxRecDepth 400000 in
/-- The fold at the result buffer is the composed term of the arguments' contents: each operation's result is
    rewritten at its own buffer to its function's value and passed over at every other buffer. -/
theorem out_eq (V : Valuation τ sig (Elt F)) :
    after ops V (main_v4 : DevRef τ sig)
      = refOut (V (main_arg0 : DevRef τ sig)) (V (main_arg1 : DevRef τ sig)) (V (main_arg2 : DevRef τ sig)) := by
  unfold refOut gathered inb inbElt startIdx wrapped
  after_results_simp
  simp only [ofBuf_toBuf]
  rfl

/-- No operation writes an argument. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-- The run, read: the result at refOut of the launched arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _), (h c main_arg0).trans (arg0_eq _),
      (h c main_arg1).trans (arg1_eq _), (h c main_arg2).trans (arg2_eq _)⟩)
    (run_main m ρ)

end Cert.ReferenceIdeal.RefTerm

end
-- ==== Proof.KernelPay.lean ====
/-
  The kernel body's arithmetic at one output entry.

  The body builds, for its 512 tokens, the 512 x 4096 matrix whose entry (r, k) is 1 when token r's class id is
  the word k and 0 otherwise (a comparison with the column counter, widened and converted; the change of float
  format is the identity on exact values), multiplies it into the 4096 x 512 table block from a zero accumulator,
  and adds the bias row. Over exact values the product's entry (r, e) is the sum over k of entry(r, k) * table(k, e):
  every term but the one at k = id is 0 * table(k, e) = 0, and that one is 1 * table(id, e). So the entry stored is
  table(id, e) + bias(e).
-/
import proofs.«407606_j69707319214556_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The 0/1 matrix of the body: entry (r, k) compares token r's id with the column counter k. -/
def onehot (x0 : IVec S512x1 32) : FVec Ideal S512x4096 .bf16 :=
  truncf .bf16 (sitofp .f32 (extui 32 (cmpi .eq
    (broadcastTo S512x4096 (shapeCast S512x1 x0 shapeCasts_S512x1_S512x1) broadcasts_S512x1_S512x4096)
    (iota .tc S512x4096 32 [1] iota_S512x4096_d1_w32)) natLt_1_32)) bitsLt_bf16_f32

/-- The id column broadcast along the class axis reads token r's id in every column. -/
theorem idcol_apply (x0 : IVec S512x1 32) (r : Fin 512) (k : Fin 4096) :
    broadcastTo S512x4096 (shapeCast S512x1 x0 shapeCasts_S512x1_S512x1) broadcasts_S512x1_S512x4096 (ix2 r k)
      = x0 (ix2 r (0 : Fin 1)) := by
  rw [shapeCast_self]
  refine broadcastTo_apply _ _ _ (ix2 r (0 : Fin 1)) ?_
  intro a
  match a with
  | ⟨0, _⟩ => rfl
  | ⟨1, _⟩ => rfl

/-- The column counter at (r, k) is the word k. -/
theorem counter_apply (r : Fin 512) (k : Fin 4096) :
    iota .tc S512x4096 32 [1] iota_S512x4096_d1_w32 (ix2 r k) = BitVec.ofNat 32 k.val := by
  show BitVec.ofNat 32 (0 * 4096 + k.val) = _
  rw [Nat.zero_mul, Nat.zero_add]

/-- Entry (r, k) of the 0/1 matrix. -/
theorem onehot_apply (x0 : IVec S512x1 32) (r : Fin 512) (k : Fin 4096) :
    onehot x0 (ix2 r k) = if x0 (ix2 r (0 : Fin 1)) = BitVec.ofNat 32 k.val then (1 : EReal) else 0 := by
  show (((((IntOp.cmpi .eq
      (broadcastTo S512x4096 (shapeCast S512x1 x0 shapeCasts_S512x1_S512x1) broadcasts_S512x1_S512x4096 (ix2 r k))
      (iota .tc S512x4096 32 [1] iota_S512x4096_d1_w32 (ix2 r k))).setWidth 32).toInt : ℝ) : EReal)) = _
  rw [idcol_apply, counter_apply]
  by_cases h : x0 (ix2 r (0 : Fin 1)) = BitVec.ofNat 32 k.val
  · rw [if_pos h]
    have : IntOp.cmpi .eq (x0 (ix2 r (0 : Fin 1))) (BitVec.ofNat 32 k.val) = 1#1 := by
      show BitVec.ofBool (x0 (ix2 r (0 : Fin 1)) == BitVec.ofNat 32 k.val) = 1#1
      rw [beq_iff_eq.mpr h]; rfl
    rw [this]
    have e1 : ((1#1 : BitVec 1).setWidth 32).toInt = 1 := by decide
    rw [e1]; simp
  · rw [if_neg h]
    have : IntOp.cmpi .eq (x0 (ix2 r (0 : Fin 1))) (BitVec.ofNat 32 k.val) = 0#1 := by
      show BitVec.ofBool (x0 (ix2 r (0 : Fin 1)) == BitVec.ofNat 32 k.val) = 0#1
      have : (x0 (ix2 r (0 : Fin 1)) == BitVec.ofNat 32 k.val) = false := beq_eq_false_iff_ne.mpr h
      rw [this]; rfl
    rw [this]
    have e0 : ((0#1 : BitVec 1).setWidth 32).toInt = 0 := by decide
    rw [e0]; simp

/-! ## The matrix product's operand indices -/

theorem lhs_0 (j : S512x512.Idx) (k : dot_S512x4096_S4096x512_S512x512_1_0_0_1_n_n.contr.Idx) :
    (dot_S512x4096_S4096x512_S512x512_1_0_0_1_n_n.lhsIdx j k 0).val = (j 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl

theorem lhs_1 (j : S512x512.Idx) (k : dot_S512x4096_S4096x512_S512x512_1_0_0_1_n_n.contr.Idx) :
    (dot_S512x4096_S4096x512_S512x512_1_0_0_1_n_n.lhsIdx j k 1).val = (k ⟨0, by decide⟩).val :=
  DotDims.lhsIdx_val_of_single _ rfl j k

theorem rhs_0 (j : S512x512.Idx) (k : dot_S512x4096_S4096x512_S512x512_1_0_0_1_n_n.contr.Idx) :
    (dot_S512x4096_S4096x512_S512x512_1_0_0_1_n_n.rhsIdx j k 0).val = (k ⟨0, by decide⟩).val :=
  DotDims.rhsIdx_val_of_single _ rfl j k

theorem rhs_1 (j : S512x512.Idx) (k : dot_S512x4096_S4096x512_S512x512_1_0_0_1_n_n.contr.Idx) :
    (dot_S512x4096_S4096x512_S512x512_1_0_0_1_n_n.rhsIdx j k 1).val = (j 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl

/-- The class axis of the product as Fin 4096. -/
abbrev cls : dot_S512x4096_S4096x512_S512x512_1_0_0_1_n_n.contr.Idx ≃ Fin 4096 :=
  contrEquiv1 dot_S512x4096_S4096x512_S512x512_1_0_0_1_n_n 4096 rfl rfl

theorem lhs_at (r e : Fin 512) (i : Fin 4096) :
    dot_S512x4096_S4096x512_S512x512_1_0_0_1_n_n.lhsIdx (ix2 r e) (cls.symm i) = ix2 r i := by
  funext a; refine Fin.ext ?_
  match a with
  | ⟨0, _⟩ => exact lhs_0 _ _
  | ⟨1, _⟩ => exact (lhs_1 _ _).trans (contrEquiv1_symm_val _ _ _ _ i)

theorem rhs_at (r e : Fin 512) (i : Fin 4096) :
    dot_S512x4096_S4096x512_S512x512_1_0_0_1_n_n.rhsIdx (ix2 r e) (cls.symm i) = ix2 i e := by
  funext a; refine Fin.ext ?_
  match a with
  | ⟨0, _⟩ => exact (rhs_0 _ _).trans (contrEquiv1_symm_val _ _ _ _ i)
  | ⟨1, _⟩ => exact rhs_1 _ _

/-! ## The product and the bias at an entry -/

/-- Distinct class numbers below 4096 are distinct 32-bit words. -/
theorem ofNat_inj {c k : Fin 4096} (h : BitVec.ofNat 32 c.val = BitVec.ofNat 32 k.val) : c = k := by
  have := congrArg BitVec.toNat h
  simp only [BitVec.toNat_ofNat] at this
  have hc := c.isLt; have hk := k.isLt
  exact Fin.ext (by omega)

/-- The product's entry (r, e) is the table block's row id(r), at column e. -/
theorem product_apply (x0 : IVec S512x1 32) (x1 : FVec Ideal S4096x512 .bf16) (r e : Fin 512) (c : Fin 4096)
    (hc : x0 (ix2 r (0 : Fin 1)) = BitVec.ofNat 32 c.val) :
    matmul dot_S512x4096_S4096x512_S512x512_1_0_0_1_n_n none (onehot x0)
      (shapeCast S4096x512 x1 shapeCasts_S4096x512_S4096x512) (constant S512x512 .f32 0x00000000#32) (ix2 r e)
      = x1 (ix2 c e) := by
  rw [shapeCast_self]
  simp only [matmul]
  rw [Ideal.matmul_constant_zero_apply, ← Equiv.sum_comp cls.symm]
  rw [Finset.sum_eq_single c]
  · rw [lhs_at, rhs_at, onehot_apply, if_pos hc, one_mul]
  · intro k _ hk
    rw [lhs_at, rhs_at, onehot_apply, if_neg (fun h => hk (ofNat_inj (hc.symm.trans h)).symm), zero_mul]
  · intro h; exact absurd (Finset.mem_univ c) h

/-- The bias row broadcast over the tokens, at (r, e): bias(e). -/
theorem biasrow_apply (x2 : FVec Ideal S512 .f32) (r e : Fin 512) :
    broadcastTo S512x512 (shapeCast S1x512 x2 shapeCasts_S512_S1x512) broadcasts_S1x512_S512x512 (ix2 r e) = x2 (ix1 e) := by
  have h1 : broadcastTo S512x512 (shapeCast S1x512 x2 shapeCasts_S512_S1x512) broadcasts_S1x512_S512x512 (ix2 r e)
      = shapeCast S1x512 x2 shapeCasts_S512_S1x512 (ix2 (0 : Fin 1) e) := by
    refine broadcastTo_apply _ _ _ (ix2 (0 : Fin 1) e) ?_
    intro a
    match a with
    | ⟨0, _⟩ => rfl
    | ⟨1, _⟩ => rfl
  rw [h1]
  refine shapeCast_apply _ _ _ (ix1 e) ?_
  rw [Shape.rowMajor_val_one, Shape.rowMajor_val_two]
  show e.val = 0 * 512 + e.val
  omega

/-- THE ENTRY STORED: table(id(r), e) + bias(e). -/
theorem pay_apply (x0 : Vec Ideal S512x1 .i32) (x1 : Vec Ideal S4096x512 .bf16) (x2 : Vec Ideal S512 .f32)
    (r e : Fin 512) (c : Fin 4096) (hc : x0 (ix2 r (0 : Fin 1)) = BitVec.ofNat 32 c.val) :
    k0_pay1 x0 x1 x2 (ix2 r e) = x1 (ix2 c e) + x2 (ix1 e) := by
  unfold k0_pay1
  show FloatOps.addf
      (matmul dot_S512x4096_S4096x512_S512x512_1_0_0_1_n_n none (onehot x0)
        (shapeCast S4096x512 x1 shapeCasts_S4096x512_S4096x512) (constant S512x512 .f32 0x00000000#32) (ix2 r e))
      (broadcastTo S512x512 (shapeCast S1x512 x2 shapeCasts_S512_S1x512) broadcasts_S1x512_S512x512 (ix2 r e)) = _
  exact congrArg₂ (fun a b : EReal => a + b) (product_apply x0 x1 r e c hc) (biasrow_apply x2 r e)

end Cert.KernelIdeal.Pay

end
-- ==== Proof.KernelValue.lean ====
/-
  The kernel's result array before the final reshape: row n of the 131072 x 512 output is the embedding of token n.

  The grid has 256 points; point t stages rows 512 t .. 512 t + 511 of the flattened id column, the whole table
  (the weight matrix transposed; the change of float format is the identity on exact values) and the whole bias, and
  writes back rows 512 t .. 512 t + 511 of the output. Token n = 512 t + r of the flattened ids is token
  (n / 8192, n % 8192) of the 16 x 8192 id array (a reshape keeps row-major order). By the body's arithmetic the
  entry written at (n, e) is table(id(n), e) + bias(e) = W[e, id(n)] + b[e]. The 256 blocks tile the rows, so the
  whole array ends at that function.
-/
import proofs.«407606_j69707319214556_1_alg».proof.Proof.Gen.KernelIdeal.Frame
import proofs.«407606_j69707319214556_1_alg».proof.Proof.KernelPay
import proofs.«407606_j69707319214556_1_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Embed Cert.KernelIdeal.Pay
open Idealize.ShloMosaic.Pipeline (Dat)

variable (m : (ℓ : Loc nD τ sig) → Buf (Elt Ideal) ℓ) (ρ : Dev nD → PrngReg)

/-! ## The arguments as launched, and the flat form of the result -/

abbrev xarr (c : Dev nD) : IVec S16x8192 32 := m ((c : Thread nD τ).loc main_arg0)
abbrev Warr (c : Dev nD) : FVec Ideal S512x4096 .f32 := m ((c : Thread nD τ).loc main_arg1)
abbrev barr (c : Dev nD) : FVec Ideal S512 .f32 := m ((c : Thread nD τ).loc main_arg2)

/-- Token n of the flattened ids is token (n / 8192, n % 8192). -/
abbrev tokP (n : Fin 131072) : Fin 16 := ⟨n.val / 8192, by have := n.isLt; omega⟩
abbrev tokQ (n : Fin 131072) : Fin 8192 := ⟨n.val % 8192, Nat.mod_lt _ (by decide)⟩

/-- The result before the final reshape: out[n, e] = W[e, id(n)] + b[e]. -/
def Gflat (x : IVec S16x8192 32) (W : FVec Ideal S512x4096 .f32) (b : FVec Ideal S512 .f32) : FVec Ideal S131072x512 .f32 :=
  fun i => W (ix2 (⟨(i 1).val, (i 1).isLt⟩ : Fin 512)
      (row x (tokP ⟨(i 0).val, (i 0).isLt⟩) (tokQ ⟨(i 0).val, (i 0).isLt⟩)))
    + b (ix1 (⟨(i 1).val, (i 1).isLt⟩ : Fin 512))

theorem Gflat_apply (x : IVec S16x8192 32) (W : FVec Ideal S512x4096 .f32) (b : FVec Ideal S512 .f32)
    (n : Fin 131072) (e : Fin 512) :
    Gflat x W b (ix2 n e) = W (ix2 e (row x (tokP n) (tokQ n))) + b (ix1 e) := rfl

/-! ## The host operations before the region -/

/-- The id column the region finds: the ids reshaped to 131072 x 1. -/
theorem ids_eq (c : Dev nD) :
    (V m c main_v0 : IVec S131072x1 32) = shapeCast S131072x1 (xarr m c) shapeCasts_S16x8192_S131072x1 := by
  show StableHlo.after hostOps0 (fun b => m (c, b)) (Proc.devRef .tc main_v0) = _
  after_results
  rfl

/-- The table the region finds: the weight matrix transposed (and re-formatted, the identity on exact values). -/
theorem table_eq (c : Dev nD) :
    (V m c main_v2 : FVec Ideal S4096x512 .bf16)
      = truncf .bf16 (transpose S4096x512 [1, 0] (Warr m c) transposes_S512x4096_S4096x512_1_0) bitsLt_bf16_f32 := by
  show StableHlo.after hostOps0 (fun b => m (c, b)) (Proc.devRef .tc main_v2) = _
  after_results

theorem ids_apply (c : Dev nD) (n : Fin 131072) :
    V m c main_v0 (ix2 n (0 : Fin 1)) = xarr m c (ix2 (tokP n) (tokQ n)) := by
  refine (congrFun (ids_eq m c) (ix2 n (0 : Fin 1))).trans ?_
  refine shapeCast_apply _ _ _ (ix2 (tokP n) (tokQ n)) ?_
  rw [Shape.rowMajor_val_two, Shape.rowMajor_val_two]
  show n.val / 8192 * 8192 + n.val % 8192 = n.val * 1 + 0
  omega

theorem table_apply (c : Dev nD) (k : Fin 4096) (e : Fin 512) :
    V m c main_v2 (ix2 k e) = Warr m c (ix2 e k) := by
  refine (congrFun (table_eq m c) (ix2 k e)).trans ?_
  show transpose S4096x512 [1, 0] (Warr m c) transposes_S512x4096_S4096x512_1_0 (ix2 k e) = _
  refine transpose_apply _ _ _ _ (ix2 e k) ?_
  intro a
  match a with
  | ⟨0, _⟩ => rfl
  | ⟨1, _⟩ => rfl

/-! ## The windows' blocks at a point -/

theorem hz2 : (![0, 0] : Fin 2 → Nat) = fun _ => 0 := funext fun a => by fin_cases a <;> rfl
theorem hz1 : (![0] : Fin 1 → Nat) = fun _ => 0 := funext fun a => by fin_cases a <;> rfl

abbrev xblk (c : Dev nD) (t : Fin cfg0.N) : Vec Ideal S512x1 .i32 := iblk m c 0 t
abbrev wblk (c : Dev nD) (t : Fin cfg0.N) : Vec Ideal S4096x512 .bf16 := iblk m c 1 t
abbrev bblk (c : Dev nD) (t : Fin cfg0.N) : Vec Ideal S512 .f32 := iblk m c 2 t

/-- The printed index maps over the grid: the id column and the output move with the point, the table and the bias
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 ∧ t.val < 256 :=
  (by decide +kernel : ∀ t : Fin grid0.N, _)

theorem xblk_apply (c : Dev nD) (t : Fin cfg0.N) (r : Fin 512) (n : Fin 131072) (hn : n.val = t.val * 512 + r.val) :
    xblk m c t (ix2 r (0 : Fin 1)) = V m c main_v0 (ix2 n (0 : Fin 1)) := by
  show V m c main_v0 (((cfg0.win 0).blk t).view.emb (ix2 r (0 : Fin 1))) = V m c main_v0 (ix2 n (0 : Fin 1))
  refine congrArg (V m c main_v0) ?_
  obtain ⟨e0, e1, -⟩ := idx_facts t
  funext a; apply Fin.ext
  match a with
  | ⟨0, _⟩ => show win0_0.index t (0 : Fin 2) * 512 + 1 * r.val = n.val; omega
  | ⟨1, _⟩ => show win0_0.index t (1 : Fin 2) * 1 + 1 * 0 = 0; omega

theorem wblk_apply (c : Dev nD) (t : Fin cfg0.N) (k : Fin 4096) (e : Fin 512) :
    wblk m c t (ix2 k e) = V m c main_v2 (ix2 k e) := by
  show V m c main_v2 (((cfg0.win 1).blk t).view.emb (ix2 k e)) = V m c main_v2 (ix2 k e)
  refine congrArg (V m c main_v2) ?_
  obtain ⟨-, -, e2, e3, -⟩ := idx_facts t
  funext a; apply Fin.ext
  match a with
  | ⟨0, _⟩ => show win0_1.index t (0 : Fin 2) * 4096 + 1 * k.val = k.val; omega
  | ⟨1, _⟩ => show win0_1.index t (1 : Fin 2) * 512 + 1 * e.val = e.val; omega

theorem bblk_apply (c : Dev nD) (t : Fin cfg0.N) (e : Fin 512) :
    bblk m c t (ix1 e) = barr m c (ix1 e) := by
  show V m c main_arg2 (((cfg0.win 2).blk t).view.emb (ix1 e)) = _
  rw [V_main_arg2]
  refine congrArg (barr m c) ?_
  obtain ⟨-, -, -, -, e4, -⟩ := idx_facts t
  funext a; apply Fin.ext
  match a with
  | ⟨0, _⟩ => show win0_2.index t (0 : Fin 1) * 512 + 1 * e.val = e.val; omega

/-! ## What a point writes -/

/-- The entry point t writes at (r, e) is the flat result at (512 t + r, e). -/
theorem entry_eq (c : Dev nD) (hx : InRange (xarr m c)) (t : Fin cfg0.N) (r e : Fin 512) (n : Fin 131072)
    (hn : n.val = t.val * 512 + r.val) :
    k0_pay1 (xblk m c t) (wblk m c t) (bblk m c t) (ix2 r e) = Gflat (xarr m c) (Warr m c) (barr m c) (ix2 n e) := by
  have hid : xblk m c t (ix2 r (0 : Fin 1)) = BitVec.ofNat 32 (row (xarr m c) (tokP n) (tokQ n)).val := by
    rw [xblk_apply m c t r n hn, ids_apply, row_val hx, BitVec.ofNat_toNat, BitVec.setWidth_eq]
  refine (pay_apply (xblk m c t) (wblk m c t) (bblk m c t) r e (row (xarr m c) (tokP n) (tokQ n)) hid).trans ?_
  rw [wblk_apply, table_apply, bblk_apply, Gflat_apply]

/-- WHAT POINT t WRITES BACK is block t of the flat result. -/
theorem flushed_eq (c : Dev nD) (hx : InRange (xarr m c)) (t : Fin cfg0.N) :
    (dats m 0 c).flushed 3 t = ((cfg0.win 3).blk t).view.read (Elt Ideal) (Gflat (xarr m c) (Warr m c) (barr m c)) := by
  show (cfg0.win 3).cut (grid0.coords t) ((dats m 0 c).after 3 t) = _
  rw [after0_3]
  unfold out0_3
  rw [View.canon_unit_zero hz2]
  simp only [View.ld_unit_zero (S := S512x1) hz2, View.ld_unit_zero (S := S4096x512) hz2, View.ld_unit_zero (S := S512) hz1]
  obtain ⟨-, -, -, -, -, e5, e6, ht⟩ := idx_facts t
  funext j
  obtain ⟨r, e, rfl⟩ : ∃ (r e : Fin 512), j = ix2 r e :=
    ⟨⟨(j 0).val, (j 0).isLt⟩, ⟨(j 1).val, (j 1).isLt⟩, by funext a; match a with | ⟨0, _⟩ => rfl | ⟨1, _⟩ => rfl⟩
  have hn : t.val * 512 + r.val < 131072 := by have := r.isLt; omega
  show k0_pay1 (xblk m c t) (wblk m c t) (bblk m c t) (ix2 r e)
    = Gflat (xarr m c) (Warr m c) (barr m c) (((cfg0.win 3).blk t).view.emb (ix2 r e))
  have hemb : ((cfg0.win 3).blk t).view.emb (ix2 r e) = ix2 (⟨t.val * 512 + r.val, hn⟩ : Fin 131072) e := by
    funext a; apply Fin.ext
    match a with
    | ⟨0, _⟩ => show win0_3.index t (0 : Fin 2) * 512 + 1 * r.val = t.val * 512 + r.val; omega
    | ⟨1, _⟩ => show win0_3.index t (1 : Fin 2) * 512 + 1 * e.val = e.val; omega
  rw [hemb]
  exact entry_eq m c hx t r e ⟨t.val * 512 + r.val, hn⟩ rfl

/-! ## The blocks tile the array -/

theorem mem_blk3 (t : Fin cfg0.N) (i : S131072x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v3).slice (win0_3.rect t)).set ↔ _
  rw [View.set_slice_whole, Rect.mem_set_unit]
  exact Iff.rfl

/-- Every block of 512 rows is some point's. -/
theorem idx_onto3 : ∀ q0 : Fin 256, ∃ t : Fin cfg0.N, win0_3.index t = ![q0.val, 0] :=
  (by decide +kernel : ∀ q0 : Fin 256, ∃ t : Fin grid0.N, win0_3.index t = ![q0.val, 0])

/-- Row n lies in the block of point n / 512. -/
theorem cover3 (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ := idx_onto3 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE ARRAY after the region: the flat result. -/
theorem final3 (c : Dev nD) (hx : InRange (xarr m c)) :
    (dats m 0 c).arrAt 3 cfg0.N = Gflat (xarr m c) (Warr m c) (barr m c) :=
  (dats m 0 c).arrAt_eq_of_cover 3 (Gflat (xarr m c) (Warr m c) (barr m c)) (fun t _ => flushed_eq m c hx t) cover3

end Cert.KernelIdeal.KValue

end
-- ==== Proof.KernelRun.lean ====
/-
  The kernel's run with its result named: every weakly fair execution of the kernel's program ends with the result
  buffer holding out[p, q, e] = W[e, x[p, q]] + b[e], and the arguments unchanged.

  After the region the one remaining host operation reshapes the 131072 x 512 output to 16 x 8192 x 512. A reshape
  keeps row-major order, so entry (p, q, e) of the result is entry (8192 p + q, e) of the flat array, and token
  8192 p + q of the flattened ids is token (p, q).
-/
import proofs.«407606_j69707319214556_1_alg».proof.Proof.KernelValue

set_option maxRecDepth 16384

noncomputable section

namespace Cert.KernelIdeal.KRun

open Cert.KernelIdeal Cert.KernelIdeal.Gen Idealize.ShloMosaic Idealize.ShloMosaic.TcCoe Idealize.SL.Sem
open Idealize.ShloMosaic.ValueIdx Cert.Embed Cert.KernelIdeal.KValue
open Idealize.ShloMosaic.Pipeline (Dat)

variable (m : (ℓ : Loc nD τ sig) → Buf (Elt Ideal) ℓ) (ρ : Dev nD → PrngReg)

/-- The flat result read at row 8192 p + q is the result at token (p, q). -/
theorem Gflat_row (x : IVec S16x8192 32) (W : FVec Ideal S512x4096 .f32) (b : FVec Ideal S512 .f32)
    (p : Fin 16) (q : Fin 8192) (e : Fin 512) (n : Fin 131072) (hn : n.val = p.val * 8192 + q.val) :
    Gflat x W b (ix2 n e) = G x W b (ix3 p q e) := by
  rw [Gflat_apply, G_apply]
  have hp : tokP n = p := Fin.ext (by show n.val / 8192 = p.val; have := q.isLt; omega)
  have hq : tokQ n = q := Fin.ext (by show n.val % 8192 = q.val; have := q.isLt; omega)
  rw [hp, hq]

/-- THE RESULT BUFFER after the host tail: the flat array reshaped, which is G. -/
theorem tail_eq (c : Dev nD) (hx : InRange (xarr m c)) :
    Pipeline.afterTail₀ cfgs (dats m) 0 (V0 m) [hostOps1] c main_v4 = G (xarr m c) (Warr m c) (barr m c) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v3)
      = Gflat (xarr m c) (Warr m c) (barr m c) :=
    (Pipeline.withArrays_arr spec0 launch0.win.arr_inj c _ _ 3).trans (final3 m c hx)
  funext i
  obtain ⟨p, q, e, rfl⟩ : ∃ (p : Fin 16) (q : Fin 8192) (e : Fin 512), i = ix3 p q e := ⟨i 0, i 1, i 2, eq_ix3 i⟩
  show shapeCast S16x8192x512 (Pipeline.withArrays (cfgs 0).spec c (V0 m c) (fun w => (dats m 0 c).arrAt w (cfgs 0).N)
      (Proc.devRef .tc main_v3)) shapeCasts_S131072x512_S16x8192x512 (ix3 p q e) = _
  rw [hA]
  have hn : p.val * 8192 + q.val < 131072 := by have := p.isLt; have := q.isLt; omega
  refine (shapeCast_apply _ _ _ (ix2 (⟨p.val * 8192 + q.val, hn⟩ : Fin 131072) e) ?_).trans ?_
  · rw [Shape.rowMajor_val_two, Shape.rowMajor_val_three]
    show (p.val * 8192 + q.val) * 512 + e.val = (p.val * 8192 + q.val) * 512 + e.val
    rfl
  · exact Gflat_row _ _ _ p q e _ rfl

/-- The run, read: the result at G of the launched arguments, the arguments unchanged. -/
theorem run (hpre : ∀ c : Dev nD, InRange (xarr m c)) :
    θ_run defs (onTc (τ := τ) (main (F := Ideal))) ⟨m, fun _ => 0, ρ⟩ fun r => ∀ c : Dev nD,
      r.2.mem ((c.tc : Thread nD τ).loc main_v4) = G (xarr m c) (Warr m c) (barr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c (hpre c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KRun

end
-- ==== Proof.lean ====
/-
  An embedding lookup computed two ways: a one-hot matrix product against a row gather.

  Inputs: class ids x (int32, 16 x 8192), a weight matrix W (512 x 4096) and a bias b (512); the precondition says W
  and b are finite and every id lies in [0, 4096). The kernel flattens the ids to a column of 131072 tokens, and for
  each block of 512 tokens forms the 0/1 matrix whose row r has its single 1 in column id(r), multiplies it into W
  transposed, and adds b. The reference reads row id of W transposed directly (jnp.take) and adds b.

  Over exact values both compute out[p, q, e] = W[e, x[p, q]] + b[e]:
  the product's entry (r, e) is a sum over the 4096 classes in which every term but the one at k = id(r) is
  0 * W[e, k] = 0 and that one is 1 * W[e, id(r)] (no finiteness is needed: 0 * w = 0 for every extended real w);
  on the reference's side an id in [0, 4096) is not negative, so it is not wrapped, lies within [0, 4095], so the
  row is not masked out, and is left alone by the gather's clamp. The range of the ids is what makes the two
  agree: on a negative id the reference wraps around where the kernel's comparison matches no class.

  The three frames: the kernel's two are the generated frame certificates; the reference's is its run, written out
  as one straight line of 27 host operations, with the result dropped. The ideal pass rewrote nothing, so there is
  nothing to preserve.
-/
import proofs.«407606_j69707319214556_1_alg».proof.Defs
import proofs.«407606_j69707319214556_1_alg».proof.Proof.Gen.Kernel
import proofs.«407606_j69707319214556_1_alg».proof.Proof.Gen.Kernel.Skeleton
import proofs.«407606_j69707319214556_1_alg».proof.Proof.Gen.Kernel.Launch
import proofs.«407606_j69707319214556_1_alg».proof.Proof.Gen.Kernel.Points
import proofs.«407606_j69707319214556_1_alg».proof.Proof.Gen.Kernel.Frame
import proofs.«407606_j69707319214556_1_alg».proof.Proof.Gen.KernelIdeal
import proofs.«407606_j69707319214556_1_alg».proof.Proof.Gen.KernelIdeal.Skeleton
import proofs.«407606_j69707319214556_1_alg».proof.Proof.Gen.KernelIdeal.Launch
import proofs.«407606_j69707319214556_1_alg».proof.Proof.Gen.KernelIdeal.Points
import proofs.«407606_j69707319214556_1_alg».proof.Proof.Gen.KernelIdeal.Frame
import proofs.«407606_j69707319214556_1_alg».proof.Proof.Gen.ReferenceIdeal
import proofs.«407606_j69707319214556_1_alg».proof.Proof.Gen.Pre_finite_inputs
import proofs.«407606_j69707319214556_1_alg».proof.Proof.Pre
import proofs.«407606_j69707319214556_1_alg».proof.Proof.RefTerm
import proofs.«407606_j69707319214556_1_alg».proof.Proof.KernelRun
import Idealize.ShloMosaic.Adequacy
import Idealize.ShloMosaic.Init

noncomputable section

namespace Cert.Proof

open Idealize.ShloMosaic Idealize.SL.Sem Cert.Embed

theorem frame_k : Cert.frame_Kernel := fun m ρ _ => Cert.Kernel.Gen.frame m ρ

theorem frame_ki : Cert.frame_KernelIdeal := fun m ρ _ => Cert.KernelIdeal.Gen.frame m ρ

/-- The reference terminates without a fault and leaves its arguments alone: its run, the result dropped. -/
theorem frame_ri : Cert.frame_ReferenceIdeal := fun m ρ _ =>
  (θ_run Cert.ReferenceIdeal.defs _ _).mono (fun _ h c => (h c).2) (Cert.ReferenceIdeal.RefTerm.run (F := Ideal) m ρ)

/-- Both programs end with out[p, q, e] = W[e, x[p, q]] + b[e] of arguments that agree. -/
theorem algebraic : Cert.algebraic_KernelIdeal_ReferenceIdeal := by
  intro m ρ m' ρ' hpre hagree
  have hx : ∀ c : Dev Cert.KernelIdeal.nD, InRange (Cert.KernelIdeal.KValue.xarr m c) :=
    fun c => inRange_of_pre _ _ _ (hpre c)
  refine ⟨fun c => G (Cert.KernelIdeal.KValue.xarr m c) (Cert.KernelIdeal.KValue.Warr m c) (Cert.KernelIdeal.KValue.barr m c),
    Cert.KernelIdeal.KRun.run m ρ hx, ?_⟩
  refine (θ_run Cert.ReferenceIdeal.defs _ _).mono (fun _ h c => ⟨(h c).1.trans ?_, (h c).2⟩)
    (Cert.ReferenceIdeal.RefTerm.run (F := Ideal) m' ρ')
  rw [(hagree c).1, (hagree c).2.1, (hagree c).2.2]
  exact Cert.ReferenceIdeal.RefValue.refOut_eq_G (hx c) _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
